-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S64x768 : Shape := ⟨2, ![64, 768]⟩
abbrev S64 : Shape := ⟨1, ![64]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S64x768 : S_.BroadcastsInDim S64x768 (![] : Fin 0 → Fin S64x768.rank)
  reducesTo_S64x768_S_d0_1 : S64x768.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S32768x768 .f32) (main_arg1 : FVec F S64x768 .f32) (main_arg2 : FVec F S64 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S32768x768 : Shape := ⟨2, ![32768, 768]⟩
abbrev S64x768 : Shape := ⟨2, ![64, 768]⟩
abbrev S64 : Shape := ⟨1, ![64]⟩
abbrev S1x64 : Shape := ⟨2, ![1, 64]⟩
abbrev S32768x64 : Shape := ⟨2, ![32768, 64]⟩
abbrev S4096x768 : Shape := ⟨2, ![4096, 768]⟩
abbrev S4096x64 : Shape := ⟨2, ![4096, 64]⟩
abbrev S4096 : Shape := ⟨1, ![4096]⟩
abbrev S4096x1 : Shape := ⟨2, ![4096, 1]⟩

abbrev nBuf : Space → Nat
  | .hbm => 5
  | .vmem => 6
  | .smem => 0
  | _ => 0

abbrev bufTy : (tb : Table) → Fin (tcTables nBuf tb) → BufTy
  | .hbm, ⟨0, _⟩ => ⟨S32768x768, .f32⟩
  | .hbm, ⟨1, _⟩ => ⟨S64x768, .f32⟩
  | .hbm, ⟨2, _⟩ => ⟨S64, .f32⟩
  | .hbm, ⟨3, _⟩ => ⟨S1x64, .f32⟩
  | .hbm, ⟨4, _⟩ => ⟨S32768x64, .f32⟩
  | .local _ .vmem, ⟨0, _⟩ => ⟨S4096x768, .f32⟩
  | .local _ .vmem, ⟨1, _⟩ => ⟨S4096x768, .f32⟩
  | .local _ .vmem, ⟨2, _⟩ => ⟨S64x768, .f32⟩
  | .local _ .vmem, ⟨3, _⟩ => ⟨S1x64, .f32⟩
  | .local _ .vmem, ⟨4, _⟩ => ⟨S4096x64, .f32⟩
  | .local _ .vmem, ⟨5, _⟩ => ⟨S4096x64, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64_S1x64 : S64.ShapeCasts S1x64
  inb_S4096x768_S4096x768_0_0 : ∀ a, (![0, 0] : Fin 2 → Nat) a + S4096x768.size a ≤ S4096x768.size a
  h_S4096x768 : 0 < S4096x768.numel
  inb_S64x768_S64x768_0_0 : ∀ a, (![0, 0] : Fin 2 → Nat) a + S64x768.size a ≤ S64x768.size a
  h_S64x768 : 0 < S64x768.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  reduces_S4096x64_S4096 : S4096x64.Reduces [1] S4096
  shapeCasts_S4096_S4096x1 : S4096.ShapeCasts S4096x1
  broadcasts_S4096x1_S4096x64 : S4096x1.Broadcasts S4096x64
  inb_S4096x64_S4096x64_0_0 : ∀ a, (![0, 0] : Fin 2 → Nat) a + S4096x64.size a ≤ S4096x64.size a
  h_S4096x64 : 0 < S4096x64.numel
  dot_S4096x768_S64x768_S4096x64_1_1_0_0_n_n_wf : DotDims.WF S4096x768 S64x768 S4096x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x768.size a ≤ S32768x768.size a
  hwx0_0 : ∀ i : grid0.Coords, EltTy.bits .f32 = 32 ∨ (Rect.block (s := S32768x768) S4096x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x768.size a ≤ S64x768.size a
  hwx0_1 : ∀ i : grid0.Coords, EltTy.bits .f32 = 32 ∨ (Rect.block (s := S64x768) S64x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S32768x64.size a
  hwx0_3 : ∀ i : grid0.Coords, EltTy.bits .f32 = 32 ∨ (Rect.block (s := S32768x64) S4096x64.size (cc0_transform_3 i) (hinb0_3 i)).WholeWords (EltTy.packing .f32)

variable [Facts₀]

def dot_S4096x768_S64x768_S4096x64_1_1_0_0_n_n : DotDims S4096x768 S64x768 S4096x64 where
  lhsContracting := [1]
  rhsContracting := [1]
  lhsNonContracting := [0]
  rhsNonContracting := [0]
  lhsBatch := []
  rhsBatch := []
  wf := dot_S4096x768_S64x768_S4096x64_1_1_0_0_n_n_wf

abbrev win0_0 : Pipeline.Window sig grid0 :=
  Pipeline.Window.ofSpec (Memref.whole main_arg0) S4096x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x768 : Shape := ⟨2, ![32768, 768]⟩
abbrev S64x768 : Shape := ⟨2, ![64, 768]⟩
abbrev S64 : Shape := ⟨1, ![64]⟩
abbrev S768x64 : Shape := ⟨2, ![768, 64]⟩
abbrev S32768x64 : Shape := ⟨2, ![32768, 64]⟩
abbrev S1x64 : Shape := ⟨2, ![1, 64]⟩
abbrev S_ : Shape := ⟨0, ![]⟩
abbrev S32768 : Shape := ⟨1, ![32768]⟩
abbrev S32768x1 : Shape := ⟨2, ![32768, 1]⟩

abbrev nBuf : Space → Nat
  | .hbm => 22
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S64x768, .f32⟩
  | .hbm, ⟨2, _⟩ => ⟨S64, .f32⟩
  | .hbm, ⟨3, _⟩ => ⟨S768x64, .f32⟩
  | .hbm, ⟨4, _⟩ => ⟨S32768x64, .f32⟩
  | .hbm, ⟨5, _⟩ => ⟨S1x64, .f32⟩
  | .hbm, ⟨6, _⟩ => ⟨S32768x64, .f32⟩
  | .hbm, ⟨7, _⟩ => ⟨S32768x64, .f32⟩
  | .hbm, ⟨8, _⟩ => ⟨S_, .f32⟩
  | .hbm, ⟨9, _⟩ => ⟨S32768, .f32⟩
  | .hbm, ⟨10, _⟩ => ⟨S_, .f32⟩
  | .hbm, ⟨11, _⟩ => ⟨S32768, .f32⟩
  | .hbm, ⟨12, _⟩ => ⟨S32768, .f32⟩
  | .hbm, ⟨13, _⟩ => ⟨S32768x1, .f32⟩
  | .hbm, ⟨14, _⟩ => ⟨S32768x64, .f32⟩
  | .hbm, ⟨15, _⟩ => ⟨S32768x64, .f32⟩
  | .hbm, ⟨16, _⟩ => ⟨S32768x64, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S32768x64, .f32⟩
  | .hbm, ⟨21, _⟩ => ⟨S32768x64, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S64x768_S768x64_1_0 : S64x768.Transposes [1, 0] S768x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  reducesTo_S32768x64_S32768_d1 : S32768x64.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  dot_S32768x768_S768x64_S32768x64_1_0_0_1_n_n_wf : DotDims.WF S32768x768 S768x64 S32768x64 [1] [0] [0] [1] [] []

variable [Facts₀]

def dot_S32768x768_S768x64_S32768x64_1_0_0_1_n_n : DotDims S32768x768 S768x64 S32768x64 where
  lhsContracting := [1]
  rhsContracting := [0]
  lhsNonContracting := [0]
  rhsNonContracting := [1]
  lhsBatch := []
  rhsBatch := []
  wf := dot_S32768x768_S768x64_S32768x64_1_0_0_1_n_n_wf

class Facts : Prop extends Facts₀ where

variable [Facts]
-- ==== Proof.GateSpec.lean ====
/-
  The specification: what both programs compute, as ONE function of the three argument arrays,
  index by index, on the extended reals.

  Token `r` (of 32768) and expert `e` (of 64) have the logit

      logit r e = Σ_{k < 768} x[r, k] · w[e, k] + b[e],

  the row `r` of `x` against the row `e` of the gate's weight (so `x · wᵀ`) plus the bias, and the
  gate score is the softmax of a token's 64 logits in its UNSHIFTED form,

      gate[r, e] = exp (logit r e) · (1 / Σ_{e'} exp (logit r e')).

  The kernel computes exactly this, block of 4096 tokens by block; the reference subtracts the
  token's largest logit before exponentiating, which over the reals changes nothing.
-/
import Idealize.ShloMosaic.PureOps.Ideal
import Idealize.ShloMosaic.Lib.ValueIdx

noncomputable section

namespace Cert.GateSpec

open Idealize.ShloMosaic Idealize.ShloMosaic.ValueIdx

/-- Token `r`'s logit for expert `e`: row `r` of `x` against row `e` of `w`, plus `b e`. -/
def logit (x : (⟨2, ![32768, 768]⟩ : Shape).Idx → EReal) (w : (⟨2, ![64, 768]⟩ : Shape).Idx → EReal)
    (b : (⟨1, ![64]⟩ : Shape).Idx → EReal) (r : Fin 32768) (e : Fin 64) : EReal :=
  (∑ k : Fin 768, x (ix2 r k) * w (ix2 e k)) + b (ix1 e)

/-- The gate scores: the unshifted softmax of each token's logits over the 64 experts. -/
def gate (x : (⟨2, ![32768, 768]⟩ : Shape).Idx → EReal) (w : (⟨2, ![64, 768]⟩ : Shape).Idx → EReal)
    (b : (⟨1, ![64]⟩ : Shape).Idx → EReal) : (⟨2, ![32768, 64]⟩ : Shape).Idx → EReal :=
  fun i => Ideal.exp (logit x w b (i 0) (i 1)) * Ideal.div 1 (∑ e : Fin 64, Ideal.exp (logit x w b (i 0) e))

/-- The gate score at explicit coordinates. -/
theorem gate_apply (x : (⟨2, ![32768, 768]⟩ : Shape).Idx → EReal) (w : (⟨2, ![64, 768]⟩ : Shape).Idx → EReal)
    (b : (⟨1, ![64]⟩ : Shape).Idx → EReal) (r : Fin 32768) (e : Fin 64) :
    gate x w b (ix2 r e)
      = Ideal.exp (logit x w b r e) * Ideal.div 1 (∑ e' : Fin 64, Ideal.exp (logit x w b r e')) := rfl

end Cert.GateSpec

end
-- ==== Proof.GateConsts.lean ====
/-
  The float constants the two programs spell, as the extended reals their bit patterns denote:
  the kernel's numerator `1.0`, the reference's initial value `-inf` of its row maximum, and the
  bound `+inf` the precondition compares every input's magnitude against. (The zero word both
  sums start from is the library's `Ideal.ofBits_zero_f32`.)
-/
import Idealize.ShloMosaic.PureOps.Ideal

noncomputable section

namespace Cert.GateConsts

open Idealize.ShloMosaic

/-- `1.0` denotes the real one. -/
theorem ofBits_one : Ideal.ofBits .f32 0x3F800000#32 = 1 := by
  simp [Ideal.ofBits, Ideal.ieee, -EReal.coe_mul]; norm_num

/-- The pattern of `-inf` denotes the bottom of the extended reals. -/
theorem ofBits_neg_inf : Ideal.ofBits .f32 0xFF800000#32 = ⊥ := by
  simp [Ideal.ofBits, Ideal.ieee]

/-- The pattern of `+inf` denotes the top of the extended reals. -/
theorem ofBits_pos_inf : Ideal.ofBits .f32 0x7F800000#32 = ⊤ := by
  simp [Ideal.ofBits, Ideal.ieee]

end Cert.GateConsts

end
-- ==== Proof.GateFinite.lean ====
/-
  What the precondition gives: every entry of the three inputs is a real number.

  The precondition is the conjunction of three `all (|v| < +inf)`, one per input, each a reduction
  by `and` of the elementwise comparison down to a single bit. If the conjunction is one then each
  reduction is one, so each comparison is one at every index; and an extended real whose magnitude
  `max v (-v)` lies strictly below the top is neither infinity, hence a real.
-/
import proofs.«162139_g24068996727021_cont_8to1_1417_25_alg».proof.Pre_finite_inputs
import proofs.«162139_g24068996727021_cont_8to1_1417_25_alg».proof.Proof.GateConsts
import Idealize.ShloMosaic.Lib.ReduceAll
import Idealize.ShloMosaic.Lib.ValueIdx
import Idealize.ShloMosaic.PureOps.Ideal.Laws

noncomputable section

namespace Cert.GateFinite

open Idealize.ShloMosaic Cert.Pre_finite_inputs

/-- An extended real whose magnitude compares strictly below `+inf` is a real. -/
theorem real_of_abs_lt_top (v : EReal) (h : Ideal.cmp .olt (max v (-v)) ⊤ = 1#1) : ∃ r : ℝ, v = (r : EReal) := by
  have hlt : max v (-v) < ⊤ := by
    by_contra hn
    have : Ideal.cmp .olt (max v (-v)) ⊤ = 0#1 := by
      unfold Ideal.cmp
      simp only [decide_eq_false hn]
      rfl
    rw [this] at h
    exact absurd h (by decide)
  have h1 : v ≠ ⊤ := fun e => by rw [e] at hlt; simp at hlt
  have h2 : v ≠ ⊥ := fun e => by rw [e] at hlt; simp at hlt
  exact ⟨v.toReal, (EReal.coe_toReal h1 h2).symm⟩

variable [hF : Cert.Pre_finite_inputs.Facts]

/-- Under the precondition every entry of the token array, of the gate's weight and of its bias is a real. -/
theorem reals_of_pre (x : FVec Ideal S32768x768 .f32) (w : FVec Ideal S64x768 .f32) (b : FVec Ideal S64 .f32)
    (h : Cert.Pre_finite_inputs.fn (F := Ideal) x w b = fun _ => 1#1) :
    (∀ i, ∃ r : ℝ, x i = (r : EReal)) ∧ (∀ i, ∃ r : ℝ, w i = (r : EReal)) ∧ (∀ i, ∃ r : ℝ, b i = (r : EReal)) := by
  have h0 := congrFun h ValueIdx.ix0
  dsimp only [Cert.Pre_finite_inputs.fn] at h0
  obtain ⟨h01, hb⟩ := IntOp.andi_eq_one.1 h0
  obtain ⟨hx, hw⟩ := IntOp.andi_eq_one.1 h01
  haveI : Subsingleton S_.Idx := ⟨fun a b => funext fun d => d.elim0⟩
  refine ⟨fun i => ?_, fun i => ?_, fun i => ?_⟩
  · have e := Host.reduce_andi_all _ _ _ _ _ hx i
    have e' : Ideal.cmp .olt (max (x i) (-(x i))) (Ideal.ofBits .f32 0x7F800000#32) = 1#1 := e
    rw [GateConsts.ofBits_pos_inf] at e'
    exact real_of_abs_lt_top _ e'
  · have e := Host.reduce_andi_all _ _ _ _ _ hw i
    have e' : Ideal.cmp .olt (max (w i) (-(w i))) (Ideal.ofBits .f32 0x7F800000#32) = 1#1 := e
    rw [GateConsts.ofBits_pos_inf] at e'
    exact real_of_abs_lt_top _ e'
  · have e := Host.reduce_andi_all _ _ _ _ _ hb i
    have e' : Ideal.cmp .olt (max (b i) (-(b i))) (Ideal.ofBits .f32 0x7F800000#32) = 1#1 := e
    rw [GateConsts.ofBits_pos_inf] at e'
    exact real_of_abs_lt_top _ e'

end Cert.GateFinite

end
-- ==== Proof.KernelBlock.lean ====
/-
  One grid point of the kernel, read at an index. The body loads a block `x0` of 4096 tokens
  ([4096, 768]), the whole weight `x1` ([64, 768]) and the bias as one row `x2` ([1, 64]), and
  stores ONE value: with

      l p q = Σ_{k < 768} x0[p, k] · x1[q, k] + x2[0, q]

  (the matrix unit's product into a zero accumulator, contracting both operands' second axis, plus
  the bias row broadcast down the 4096 rows), entry (p, q) of the stored block is

      exp (l p q) · (1 / Σ_{q' < 64} exp (l p q')),

  the row sum taken along the 64 lanes, reshaped to a column, divided into the scalar one and
  broadcast back along the lanes.
-/
import proofs.«162139_g24068996727021_cont_8to1_1417_25_alg».proof.Proof.Gen.KernelIdeal.Skeleton
import proofs.«162139_g24068996727021_cont_8to1_1417_25_alg».proof.Proof.GateConsts
import proofs.«162139_g24068996727021_cont_8to1_1417_25_alg».proof.Proof.GateSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.GateBlock

open Cert.KernelIdeal Cert.KernelIdeal.Gen Idealize.ShloMosaic Idealize.ShloMosaic.ValueIdx

/-! ## Two column layouts read at an index -/

/-- An `[a]` array cast to the column `[a, 1]` reads, at `(p, u)`, the operand at `p`. -/
theorem shapeCast_col_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product's operand indices -/

theorem lhs_mm_0 (i : S4096x64.Idx) (q : dot_S4096x768_S64x768_S4096x64_1_1_0_0_n_n.contr.Idx) :
    (dot_S4096x768_S64x768_S4096x64_1_1_0_0_n_n.lhsIdx i q 0).val = (i 0).val := by
  unfold DotDims.lhsIdx
  rw [dif_neg (show ¬(0 : Fin S4096x768.rank) ∈ dot_S4096x768_S64x768_S4096x64_1_1_0_0_n_n.lhsBatch by decide), dif_pos (show (0 : Fin S4096x768.rank) ∈ dot_S4096x768_S64x768_S4096x64_1_1_0_0_n_n.lhsNonContracting by decide)]
  rfl
theorem lhs_mm_1 (i : S4096x64.Idx) (q : dot_S4096x768_S64x768_S4096x64_1_1_0_0_n_n.contr.Idx) :
    (dot_S4096x768_S64x768_S4096x64_1_1_0_0_n_n.lhsIdx i q 1).val = (q ⟨0, by decide⟩).val :=
  dot_S4096x768_S64x768_S4096x64_1_1_0_0_n_n.lhsIdx_val_of_single rfl i q
theorem rhs_mm_0 (i : S4096x64.Idx) (q : dot_S4096x768_S64x768_S4096x64_1_1_0_0_n_n.contr.Idx) :
    (dot_S4096x768_S64x768_S4096x64_1_1_0_0_n_n.rhsIdx i q 0).val = (i 1).val := by
  unfold DotDims.rhsIdx
  rw [dif_neg (show ¬(0 : Fin S64x768.rank) ∈ dot_S4096x768_S64x768_S4096x64_1_1_0_0_n_n.rhsBatch by decide), dif_pos (show (0 : Fin S64x768.rank) ∈ dot_S4096x768_S64x768_S4096x64_1_1_0_0_n_n.rhsNonContracting by decide)]
  rfl
theorem rhs_mm_1 (i : S4096x64.Idx) (q : dot_S4096x768_S64x768_S4096x64_1_1_0_0_n_n.contr.Idx) :
    (dot_S4096x768_S64x768_S4096x64_1_1_0_0_n_n.rhsIdx i q 1).val = (q ⟨0, by decide⟩).val :=
  dot_S4096x768_S64x768_S4096x64_1_1_0_0_n_n.rhsIdx_val_of_single rfl i q

/-! ## The block's logits -/

/-- The block's logits: the product into the zero accumulator plus the bias row broadcast over the rows. -/
def blkLogits (x0 : FVec Ideal S4096x768 .f32) (x1 : FVec Ideal S64x768 .f32) (x2 : FVec Ideal S1x64 .f32) : FVec Ideal S4096x64 .f32 :=
  addf (matmul dot_S4096x768_S64x768_S4096x64_1_1_0_0_n_n none x0 x1 (constant (F := Ideal) S4096x64 .f32 0x00000000#32))
    (broadcastTo S4096x64 (shapeCast S1x64 x2 shapeCasts_S1x64_S1x64) broadcasts_S1x64_S4096x64)

/-- Entry (p, q) of the block's logits: row `p` of the token block against row `q` of the weight, plus the bias at `q`. -/
theorem blkLogits_apply (x0 : FVec Ideal S4096x768 .f32) (x1 : FVec Ideal S64x768 .f32) (x2 : FVec Ideal S1x64 .f32)
    (p : Fin 4096) (q : Fin 64) :
    blkLogits x0 x1 x2 (ix2 p q) = (∑ k : Fin 768, x0 (ix2 p k) * x1 (ix2 q k)) + x2 (ix2 (0 : Fin 1) q) := by
  show FloatOps.matmul dot_S4096x768_S64x768_S4096x64_1_1_0_0_n_n none x0 x1 (constant (F := Ideal) S4096x64 .f32 0x00000000#32) (ix2 p q)
      + broadcastTo S4096x64 (shapeCast S1x64 x2 shapeCasts_S1x64_S1x64) broadcasts_S1x64_S4096x64 (ix2 p q) = _
  rw [Ideal.matmul_constant_zero_apply, broadcastTo_1b_ab_apply, shapeCast_self,
    ← Equiv.sum_comp (ValueIdx.contrEquiv1 dot_S4096x768_S64x768_S4096x64_1_1_0_0_n_n 768 rfl rfl).symm]
  refine congrArg (· + x2 (ix2 (0 : Fin 1) q)) (Finset.sum_congr rfl fun k _ => ?_)
  have hk := ValueIdx.contrEquiv1_symm_val dot_S4096x768_S64x768_S4096x64_1_1_0_0_n_n 768 rfl rfl k
  have el : dot_S4096x768_S64x768_S4096x64_1_1_0_0_n_n.lhsIdx (ix2 p q) ((ValueIdx.contrEquiv1 dot_S4096x768_S64x768_S4096x64_1_1_0_0_n_n 768 rfl rfl).symm k) = ix2 p k := funext fun a => Fin.ext (by
    match a with
    | ⟨0, _⟩ => exact lhs_mm_0 _ _
    | ⟨1, _⟩ => exact (lhs_mm_1 _ _).trans hk)
  have er : dot_S4096x768_S64x768_S4096x64_1_1_0_0_n_n.rhsIdx (ix2 p q) ((ValueIdx.contrEquiv1 dot_S4096x768_S64x768_S4096x64_1_1_0_0_n_n 768 rfl rfl).symm k) = ix2 q k := funext fun a => Fin.ext (by
    match a with
    | ⟨0, _⟩ => exact rhs_mm_0 _ _
    | ⟨1, _⟩ => exact (rhs_mm_1 _ _).trans hk)
  rw [el, er]

/-! ## The stored value -/

/-- Entry (p, q) of the value the body stores: the exponential of the logit times the reciprocal of
    the row's sum of exponentials over the 64 lanes. -/
theorem pay_apply (x0 : FVec Ideal S4096x768 .f32) (x1 : FVec Ideal S64x768 .f32) (x2 : FVec Ideal S1x64 .f32)
    (p : Fin 4096) (q : Fin 64) :
    k0_pay1 (F := Ideal) x0 x1 x2 (ix2 p q)
      = Ideal.exp (blkLogits x0 x1 x2 (ix2 p q))
        * Ideal.div 1 (∑ q' : Fin 64, Ideal.exp (blkLogits x0 x1 x2 (ix2 p q'))) := by
  show Ideal.exp (blkLogits x0 x1 x2 (ix2 p q))
      * broadcastTo S4096x64 (divf (broadcast S4096x1 (FloatOps.ofBits (F := Ideal) .f32 0x3F800000#32))
          (shapeCast S4096x1 (multiReduction .add [1] S4096 (exp (blkLogits x0 x1 x2)) 0x00000000#32
            reduces_S4096x64_S4096 (.inl rfl) rfl) shapeCasts_S4096_S4096x1)) broadcasts_S4096x1_S4096x64 (ix2 p q) = _
  refine congrArg (Ideal.exp (blkLogits x0 x1 x2 (ix2 p q)) * ·) ?_
  refine (broadcastTo_col_apply _ _ p q).trans ?_
  show Ideal.div (Ideal.ofBits .f32 0x3F800000#32)
      (shapeCast S4096x1 (multiReduction .add [1] S4096 (exp (blkLogits x0 x1 x2)) 0x00000000#32
        reduces_S4096x64_S4096 (.inl rfl) rfl) shapeCasts_S4096_S4096x1 (ix2 p (0 : Fin 1))) = _
  rw [GateConsts.ofBits_one]
  refine congrArg (Ideal.div 1) ?_
  refine (shapeCast_col_apply _ _ p 0).trans ?_
  refine (Ideal.multiReduction_add_single _ _ _ _ _ (ix1 p)).trans ?_
  refine Finset.sum_congr rfl fun k _ => ?_
  exact congrArg (fun i => Ideal.exp (blkLogits x0 x1 x2 i))
    (funext fun a => Fin.ext (by match a with | ⟨0, _⟩ => rfl | ⟨1, _⟩ => rfl))

/-- The stored block is the specification's block: if the token block `x0` is rows `4096·T …` of the
    array `X`, `x1` is the weight `W` and `x2` the bias `B` as one row, then entry (p, q) of the stored
    value is the gate score of token `4096·T + p` for expert `q`. -/
theorem pay_is_gate (X : (⟨2, ![32768, 768]⟩ : Shape).Idx → EReal) (W : (⟨2, ![64, 768]⟩ : Shape).Idx → EReal)
    (B : (⟨1, ![64]⟩ : Shape).Idx → EReal)
    (x0 : FVec Ideal S4096x768 .f32) (x1 : FVec Ideal S64x768 .f32) (x2 : FVec Ideal S1x64 .f32)
    (T : ℕ) (p : Fin 4096) (q : Fin 64) (hT : T * 4096 + p.val < 32768)
    (h0 : ∀ k : Fin 768, x0 (ix2 p k) = X (ix2 (⟨T * 4096 + p.val, hT⟩ : Fin 32768) k))
    (h1 : ∀ (e : Fin 64) (k : Fin 768), x1 (ix2 e k) = W (ix2 e k))
    (h2 : ∀ e : Fin 64, x2 (ix2 (0 : Fin 1) e) = B (ix1 e)) :
    k0_pay1 (F := Ideal) x0 x1 x2 (ix2 p q) = GateSpec.gate X W B (ix2 (⟨T * 4096 + p.val, hT⟩ : Fin 32768) q) := by
  rw [pay_apply, GateSpec.gate_apply]
  simp only [blkLogits_apply, GateSpec.logit, h0, h1, h2]

end Cert.KernelIdeal.GateBlock

end
-- ==== Proof.KernelGate.lean ====
/-
  From the kernel's eight blocks to its whole result array.

  Grid point `t` (of 8) stages rows `4096·t … 4096·t + 4095` of `x` (block index `(t, 0)` of
  [4096, 768] blocks), the whole weight and the whole bias row (block `(0, 0)` at every point), and
  writes back block `(t, 0)` of the [32768, 64] result in [4096, 64] blocks. What it writes is, entry
  by entry, the specification's gate score of the token and expert the entry stands for; the eight
  blocks tile the result (row `r` lies in block `r / 4096`), so after the run the result array IS
  the specification's `gate` of the three arguments. Nothing here needs the inputs to be finite.
-/
import proofs.«162139_g24068996727021_cont_8to1_1417_25_alg».proof.Proof.Gen.KernelIdeal.Value
import proofs.«162139_g24068996727021_cont_8to1_1417_25_alg».proof.Proof.KernelBlock
import proofs.«162139_g24068996727021_cont_8to1_1417_25_alg».proof.Proof.GateSpec
import Idealize.ShloMosaic.Lib.Pipeline.Value
import Idealize.ShloMosaic.Lib.StableHlo.Run
import Idealize.ShloMosaic.Lib.ValueLayout

set_option maxRecDepth 16384

noncomputable section

namespace Cert.KernelIdeal.GateValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 8 grid points: the token window and the result window sit at
    block row `t`, the weight and the bias row at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The three arguments as the specification takes them. -/
abbrev argX (c : Dev nD) : S32768x768.Idx → EReal := m ((c : Thread nD τ).loc main_arg0)
abbrev argW (c : Dev nD) : S64x768.Idx → EReal := m ((c : Thread nD τ).loc main_arg1)
abbrev argB (c : Dev nD) : S64.Idx → EReal := m ((c : Thread nD τ).loc main_arg2)

/-! ## The input blocks, read off the arguments -/

/-- Row `p` of the token block at point `t` is row `4096·t + p` of `x`. -/
theorem tokens_apply (c : Dev nD) (t : Fin cfg0.N) (p : Fin 4096) (k : Fin 768) (hT : t.val * 4096 + p.val < 32768) :
    (iblk m c 0 t : S4096x768.Idx → EReal) (ix2 p k) = argX m c (ix2 (⟨t.val * 4096 + p.val, hT⟩ : Fin 32768) k) := by
  obtain ⟨e0, e1, -⟩ := idx_facts t
  show V m c main_arg0 (((cfg0.win 0).blk t).view.emb (ix2 p k)) = _
  refine (congrFun (V_main_arg0 m c) _).trans ?_
  refine congrArg (argX m c) (funext fun a => Fin.ext ?_)
  match a with
  | ⟨0, _⟩ => show win0_0.index t (0 : Fin 2) * 4096 + 1 * p.val = t.val * 4096 + p.val; omega
  | ⟨1, _⟩ => show win0_0.index t (1 : Fin 2) * 768 + 1 * k.val = k.val; omega

/-- The weight block at every point is the whole weight. -/
theorem weight_apply (c : Dev nD) (t : Fin cfg0.N) (e : Fin 64) (k : Fin 768) :
    (iblk m c 1 t : S64x768.Idx → EReal) (ix2 e k) = argW m c (ix2 e k) := by
  obtain ⟨-, -, e0, e1, -⟩ := idx_facts t
  show V m c main_arg1 (((cfg0.win 1).blk t).view.emb (ix2 e k)) = _
  refine (congrFun (V_main_arg1 m c) _).trans ?_
  refine congrArg (argW m c) (funext fun a => Fin.ext ?_)
  match a with
  | ⟨0, _⟩ => show win0_1.index t (0 : Fin 2) * 64 + 1 * e.val = e.val; omega
  | ⟨1, _⟩ => show win0_1.index t (1 : Fin 2) * 768 + 1 * k.val = k.val; omega

/-- The region finds the bias as ONE ROW: the host's reshape of the [64] argument to [1, 64]. -/
theorem bias_row (c : Dev nD) :
    (V m c main_call0_v0 : S1x64.Idx → EReal) = shapeCast S1x64 (argB m c) shapeCasts_S64_S1x64 := by
  dsimp only [Gen.V, Gen.hostOps0]
  after_results
  rfl

/-- The bias block at every point is that row: entry (0, e) is `b e`. -/
theorem bias_apply (c : Dev nD) (t : Fin cfg0.N) (e : Fin 64) :
    (iblk m c 2 t : S1x64.Idx → EReal) (ix2 (0 : Fin 1) e) = argB m c (ix1 e) := by
  obtain ⟨-, -, -, -, e0, e1, -⟩ := idx_facts t
  show V m c main_call0_v0 (((cfg0.win 2).blk t).view.emb (ix2 (0 : Fin 1) e)) = _
  have hemb : ((cfg0.win 2).blk t).view.emb (ix2 (0 : Fin 1) e) = ix2 (0 : Fin 1) e := funext fun a => Fin.ext (by
    match a with
    | ⟨0, _⟩ => show win0_2.index t (0 : Fin 2) * 1 + 1 * 0 = 0; omega
    | ⟨1, _⟩ => show win0_2.index t (1 : Fin 2) * 64 + 1 * e.val = e.val; omega)
  rw [hemb]
  refine (congrFun (bias_row m c) _).trans ?_
  exact shapeCast_a_1a_apply _ _ 0 e

/-! ## What a point writes back, and the whole array -/

/-- WHAT POINT `t` WRITES BACK is block `t` of the specification's gate scores of the arguments. -/
theorem flushed_eq (c : Dev nD) (t : Fin cfg0.N) :
    (dats m 0 c).flushed 3 t
      = ((cfg0.win 3).blk t).view.read (Elt Ideal) (GateSpec.gate (argX m c) (argW m c) (argB m c)) := by
  have hN : t.val < 8 := by have h8 : cfg0.N = 8 := N_0; have := t.isLt; omega
  obtain ⟨-, -, -, -, -, -, e0, e1⟩ := idx_facts t
  rw [flushed3]
  unfold out0_3
  rw [View.canon_unit_zero hz]
  simp only [View.ld_unit_zero (S := S4096x768) hz, View.ld_unit_zero (S := S64x768) hz, View.ld_unit_zero (S := S1x64) hz]
  funext j
  obtain ⟨p, q, rfl⟩ : ∃ (p : Fin 4096) (q : Fin 64), j = ix2 p q := ⟨j 0, j 1, eq_ix2 j⟩
  have hT : t.val * 4096 + p.val < 32768 := by have := p.isLt; omega
  have hemb : ((cfg0.win 3).blk t).view.emb (ix2 p q) = ix2 (⟨t.val * 4096 + p.val, hT⟩ : Fin 32768) q :=
    funext fun a => Fin.ext (by
      match a with
      | ⟨0, _⟩ => show win0_3.index t (0 : Fin 2) * 4096 + 1 * p.val = t.val * 4096 + p.val; omega
      | ⟨1, _⟩ => show win0_3.index t (1 : Fin 2) * 64 + 1 * q.val = q.val; omega)
  show k0_pay1 (F := Ideal) (iblk m c 0 t) (iblk m c 1 t) (iblk m c 2 t) (ix2 p q)
      = GateSpec.gate (argX m c) (argW m c) (argB m c) (((cfg0.win 3).blk t).view.emb (ix2 p q))
  rw [hemb]
  exact GateBlock.pay_is_gate (argX m c) (argW m c) (argB m c) (iblk m c 0 t) (iblk m c 1 t) (iblk m c 2 t)
    t.val p q hT (fun k => tokens_apply m c t p k hT) (fun e k => weight_apply m c t e k) (fun e => bias_apply m c t e)

/-- An index of the result is in point `t`'s block iff each coordinate is in the block's range on its axis. -/
theorem mem_blk (t : Fin cfg0.N) (i : S32768x64.Idx) :
    i ∈ ((cfg0.win 3).blk t).view.set ↔ ∀ a : Fin 2, win0_3.index t a * S4096x64.size a ≤ (i a).val ∧ (i a).val < win0_3.index t a * S4096x64.size a + S4096x64.size a := by
  show i ∈ ((View.whole main_v0).slice (win0_3.rect t)).set ↔ _
  rw [View.set_slice_whole, Rect.mem_set_unit]
  exact Iff.rfl

/-- The eight blocks tile the result: row `r` lies in the block of point `r / 4096`. -/
theorem covered (i : S32768x64.Idx) :
    ∃ t : Fin cfg0.N, (cfg0.win 3).flush t = true ∧ i ∈ ((cfg0.win 3).blk t).view.set := by
  have hi0 : (i 0).val < 32768 := (i 0).isLt
  have hi1 : (i 1).val < 64 := (i 1).isLt
  have hN : cfg0.N = 8 := N_0
  let t : Fin cfg0.N := ⟨(i 0).val / 4096, by rw [hN]; omega⟩
  have ht : t.val = (i 0).val / 4096 := rfl
  obtain ⟨-, -, -, -, -, -, e0, e1⟩ := idx_facts t
  refine ⟨t, flush0_3 t, ?_⟩
  rw [mem_blk]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 64 ≤ (i 1).val ∧ (i 1).val < win0_3.index t (1 : Fin 2) * 64 + 64; omega

/-- THE RESULT ARRAY after the run is the specification's gate scores of the three arguments. -/
theorem final (c : Dev nD) :
    (dats m 0 c).arrAt 3 cfg0.N = GateSpec.gate (argX m c) (argW m c) (argB m c) :=
  (dats m 0 c).arrAt_eq_of_cover 3 (GateSpec.gate (argX m c) (argW m c) (argB m c)) (fun t _ => flushed_eq m c t) covered

/-- The kernel's run, read: the result at the gate scores of the arguments, the arguments unchanged. -/
theorem run : θ_run defs (onTc (τ := τ) (main (F := Ideal))) ⟨m, fun _ => 0, ρ⟩ fun r => ∀ c : Dev nD,
      r.2.mem ((c : Thread nD τ).loc main_v0) = GateSpec.gate (argX m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.GateValue

end
-- ==== Proof.GateLaw.lean ====
/-
  The one law that joins the two programs. For real logits `l j` and ANY real shift `μ`,

      exp (l e - μ) / Σ_j exp (l j - μ)  =  exp (l e) · (1 / Σ_j exp (l j)),

  because `exp (a - μ) = exp a / exp μ` and the positive factor `1 / exp μ` leaves the sum and
  cancels. The reference shifts by the row's maximum and the kernel does not shift at all; the law
  does not care which real the shift is, only that it IS a real (at an infinite shift the left side
  is the junk value of `0 / 0`). So beside the law stands the fact that the maximum of finitely many
  reals, folded from `-inf`, is a real. Everything is stated on the extended reals, in the forms the
  two programs' terms take, and proved by passing to ℝ.
-/
import Idealize.ShloMosaic.PureOps.Ideal

noncomputable section

namespace Cert.GateLaw

open Idealize.ShloMosaic

/-- The coercion of the reals into the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law over ℝ: shifting every logit by `μ` changes neither quotient. -/
theorem real_shift {ι : Type*} [Fintype ι] (l : ι → ℝ) (μ : ℝ) (e : ι) :
    Real.exp (l e - μ) * (1 / ∑ j, Real.exp (l j - μ)) = Real.exp (l e) * (1 * (1 / ∑ j, Real.exp (l j))) := by
  have hpos : 0 < ∑ j, Real.exp (l j) := Finset.sum_pos (fun j _ => Real.exp_pos _) ⟨e, Finset.mem_univ e⟩
  have hμ : Real.exp μ ≠ 0 := (Real.exp_pos μ).ne'
  have hs : ∑ j, Real.exp (l j - μ) = (∑ j, Real.exp (l j)) / Real.exp μ := by
    rw [Finset.sum_div]; exact Finset.sum_congr rfl fun j _ => Real.exp_sub _ _
  rw [hs, Real.exp_sub]
  field_simp

/-- The law on the extended reals: the reference's quotient (shifted logits, its sum started from
    zero) is the kernel's product with the reciprocal of the unshifted sum, whenever the logits
    `L j` and the shift `M` are reals. -/
theorem softmax_shift {ι : Type*} [Fintype ι] (L : ι → EReal) (M : EReal) (l : ι → ℝ) (μ : ℝ)
    (hL : ∀ j, L j = (l j : EReal)) (hM : M = (μ : EReal)) (e : ι) :
    Ideal.div (Ideal.exp (L e - M)) (0 + ∑ j, Ideal.exp (L j - M))
      = Ideal.exp (L e) * Ideal.div 1 (∑ j, Ideal.exp (L j)) := by
  have hpos : 0 < ∑ j, Real.exp (l j) := Finset.sum_pos (fun j _ => Real.exp_pos _) ⟨e, Finset.mem_univ e⟩
  have hpos' : 0 < ∑ j, Real.exp (l j - μ) := Finset.sum_pos (fun j _ => Real.exp_pos _) ⟨e, Finset.mem_univ e⟩
  have e1 : ∀ j, Ideal.exp (L j - M) = ((Real.exp (l j - μ) : ℝ) : EReal) := fun j => by
    rw [hL, hM, ← EReal.coe_sub]; rfl
  have e2 : ∀ j, Ideal.exp (L j) = ((Real.exp (l j) : ℝ) : EReal) := fun j => by rw [hL]; rfl
  simp only [e1, e2, zero_add]
  rw [← coe_sum, ← coe_sum, Ideal.div_coe hpos'.ne', Ideal.div_coe hpos.ne', ← EReal.coe_one,
    ← EReal.coe_mul, ← EReal.coe_mul, ← EReal.coe_mul, real_shift]

/-- The maximum of finitely many reals (at least one), folded from `-inf`, is a real. -/
theorem fold_max_real {ι : Type*} (s : Finset ι) (L : ι → EReal) (l : ι → ℝ)
    (hL : ∀ j, L j = (l j : EReal)) (j0 : ι) (hj0 : j0 ∈ s) : ∃ μ : ℝ, s.fold max ⊥ L = (μ : EReal) := by
  have h1 : s.fold max ⊥ L < ⊤ := by
    rw [Finset.fold_max_lt]
    exact ⟨bot_lt_top, fun j _ => by rw [hL]; exact EReal.coe_lt_top _⟩
  have h2 : ⊥ < s.fold max ⊥ L := by
    rw [Finset.lt_fold_max]
    exact Or.inr ⟨j0, hj0, by rw [hL]; exact EReal.bot_lt_coe _⟩
  exact ⟨(s.fold max ⊥ L).toReal, (EReal.coe_toReal h1.ne h2.ne').symm⟩

end Cert.GateLaw

end
-- ==== Proof.RefGate.lean ====
/-
  The reference computes the specification's gate scores whenever its inputs are real numbers.

  Stage by stage: the reference transposes the weight and contracts `x`'s second axis with the
  transpose's first, which is row `r` of `x` against row `e` of `w`; adds the bias broadcast over
  the tokens: the specification's logit. It then takes each token's maximum over the 64 experts
  (a fold of `max` from `-inf`, and once more against `-inf`), subtracts it, exponentiates, sums
  over the experts from zero, and divides. With real inputs every logit is a real, so the maximum
  is a real, and the shift law says the quotient is the unshifted one.
-/
import proofs.«162139_g24068996727021_cont_8to1_1417_25_alg».proof.Proof.Gen.ReferenceIdeal.Read
import proofs.«162139_g24068996727021_cont_8to1_1417_25_alg».proof.Proof.GateSpec
import proofs.«162139_g24068996727021_cont_8to1_1417_25_alg».proof.Proof.GateLaw
import proofs.«162139_g24068996727021_cont_8to1_1417_25_alg».proof.Proof.GateConsts
import Idealize.ShloMosaic.PureOps.Reduce

noncomputable section

namespace Cert.ReferenceIdeal.GateRef

open Cert.ReferenceIdeal Cert.ReferenceIdeal.Gen Cert.ReferenceIdeal.Read Idealize.ShloMosaic Idealize.ShloMosaic.ValueIdx

variable (x : FVec Ideal S32768x768 .f32) (w : FVec Ideal S64x768 .f32) (b : FVec Ideal S64 .f32)

/-- The reference's biased product at (r, e) is the specification's logit. -/
theorem v4_apply (r : Fin 32768) (e : Fin 64) :
    val_main_v4 (F := Ideal) x w b (ix2 r e) = GateSpec.logit x w b r e := by
  have e1 : ∀ k : Fin 768, lidx_main_v1 (ix2 r e) k = ix2 r k := fun k =>
    funext fun a => Fin.ext (by match a with | ⟨0, _⟩ => rfl | ⟨1, _⟩ => rfl)
  have e2 : ∀ k : Fin 768, idx_main_v0 (ridx_main_v1 (ix2 r e) k) = ix2 e k := fun k =>
    funext fun a => Fin.ext (by match a with | ⟨0, _⟩ => rfl | ⟨1, _⟩ => rfl)
  have e3 : idx_main_v2 (idx_main_v3 (ix2 r e)) = ix1 e :=
    funext fun a => Fin.ext (by match a with | ⟨0, _⟩ => rfl)
  rw [val_main_v4_apply, val_main_v1_apply, val_main_v3_apply, val_main_v2_apply]
  simp only [val_main_v0_apply, e1, e2, e3]
  rfl

/-- Token `r`'s maximum, as the reference takes it, is the fold of `max` from `-inf` over its 64 logits. -/
theorem v5_apply (r : Fin 32768) :
    val_main_v5 (F := Ideal) x w b (ix1 r)
      = (Finset.univ : Finset (Fin 64)).fold max ⊥ (fun e => GateSpec.logit x w b r e) := by
  unfold val_main_v5
  refine (Host.reduce_eq_fold_single (max : EReal → EReal → EReal) (val_main_v4 (F := Ideal) x w b)
    (val_main_cst (F := Ideal)) reducesTo_S32768x64_S32768_d1 (by decide) h_S_ (ix1 r)).trans ?_
  rw [show val_main_cst (F := Ideal) (Shape.Idx.first h_S_) = ⊥ from GateConsts.ofBits_neg_inf]
  refine congrArg (fun f => (Finset.univ : Finset (Fin 64)).fold max ⊥ f) (funext fun e => ?_)
  refine Eq.trans ?_ (v4_apply x w b r e)
  exact congrArg (val_main_v4 (F := Ideal) x w b)
    (funext fun a => Fin.ext (by match a with | ⟨0, _⟩ => rfl | ⟨1, _⟩ => rfl))

/-- With real logits, the shift the reference subtracts from token `r`'s logits is a real. -/
theorem v7_real (l : Fin 32768 → Fin 64 → ℝ) (hl : ∀ r e, GateSpec.logit x w b r e = (l r e : EReal)) (r : Fin 32768) :
    ∃ μ : ℝ, val_main_v7 (F := Ideal) x w b (ix1 r) = (μ : EReal) := by
  obtain ⟨μ, hμ⟩ := GateLaw.fold_max_real (Finset.univ : Finset (Fin 64)) (fun e => GateSpec.logit x w b r e) (l r)
    (hl r) (0 : Fin 64) (Finset.mem_univ _)
  refine ⟨μ, ?_⟩
  rw [val_main_v7_apply, val_main_v6_apply, val_main_cst_0_apply, v5_apply, hμ]
  show max (Ideal.ofBits .f32 0xFF800000#32) (μ : EReal) = _
  rw [GateConsts.ofBits_neg_inf]
  exact max_eq_right bot_le

/-- With real inputs the reference's result is the specification's gate scores. -/
theorem ref_is_gate (hx : ∀ i, ∃ r : ℝ, x i = (r : EReal)) (hw : ∀ i, ∃ r : ℝ, w i = (r : EReal))
    (hb : ∀ i, ∃ r : ℝ, b i = (r : EReal)) :
    val_main_v15 (F := Ideal) x w b = GateSpec.gate x w b := by
  choose xr hxr using hx
  choose wr hwr using hw
  choose br hbr using hb
  have hl : ∀ r e, GateSpec.logit x w b r e
      = (((∑ k : Fin 768, xr (ix2 r k) * wr (ix2 e k)) + br (ix1 e) : ℝ) : EReal) := fun r e => by
    unfold GateSpec.logit
    simp only [hxr, hwr, hbr]
    rw [EReal.coe_add, GateLaw.coe_sum]
    simp only [EReal.coe_mul]
  funext i
  obtain ⟨r, e, rfl⟩ : ∃ (r : Fin 32768) (e : Fin 64), i = ix2 r e := ⟨i 0, i 1, eq_ix2 i⟩
  obtain ⟨μ, hμ⟩ := v7_real x w b _ hl r
  have h11 : ∀ e' : Fin 64, val_main_v11 (F := Ideal) x w b (ix2 r e')
      = Ideal.exp (GateSpec.logit x w b r e' - (μ : EReal)) := fun e' => by
    have e8 : idx_main_v8 (idx_main_v9 (ix2 r e')) = ix1 r :=
      funext fun a => Fin.ext (by match a with | ⟨0, _⟩ => rfl)
    rw [val_main_v11_apply, val_main_v10_apply, val_main_v9_apply, val_main_v8_apply, v4_apply, e8, hμ]
    rfl
  have eidx : ∀ k : Fin 64, idx_main_v12 (idx_main_v13 (idx_main_v14 (ix2 r e))) k = ix2 r k := fun k =>
    funext fun a => Fin.ext (by match a with | ⟨0, _⟩ => rfl | ⟨1, _⟩ => rfl)
  rw [GateSpec.gate_apply, val_main_v15_apply, val_main_v14_apply, val_main_v13_apply, val_main_v12_apply,
    val_main_cst_1_apply]
  simp only [eidx, h11]
  show Ideal.div (Ideal.exp (GateSpec.logit x w b r e - (μ : EReal)))
      (Ideal.ofBits .f32 0x00000000#32 + ∑ k : Fin 64, Ideal.exp (GateSpec.logit x w b r k - (μ : EReal))) = _
  rw [Ideal.ofBits_zero_f32]
  exact GateLaw.softmax_shift (fun e' => GateSpec.logit x w b r e') (μ : EReal) _ μ (fun e' => hl r e') rfl e

end Cert.ReferenceIdeal.GateRef

end
-- ==== Proof.lean ====
/- Gate scores of a mixture-of-experts router: the kernel against its reference, over the extended reals.

   For 32768 tokens `x[r, ·]` of width 768 and 64 experts with weight rows `w[e, ·]` and bias `b[e]`,
   the logit is `l(r, e) = Σ_k x[r, k] · w[e, k] + b[e]` and the gate score is the softmax over the
   experts. The kernel walks the tokens in 8 blocks of 4096 and computes the softmax UNSHIFTED,
   `exp l(r, e) · (1 / Σ_e' exp l(r, e'))`; the reference subtracts the token's largest logit first,
   `exp (l(r, e) - M(r)) / Σ_e' exp (l(r, e') - M(r))`. Over the reals the two agree for any real
   shift, since `exp (a - M) = exp a / exp M` and the common positive factor cancels; the extended
   reals need the logits and the shift to BE reals, which the precondition (every input finite)
   gives: finite sums and products of reals are real, and so is the maximum of 64 reals.

   The modules: GateSpec (the gate scores as one function of the three arrays), GateLaw (the shift
   law and the maximum being real), GateConsts (the constants `1`, `-inf`, `+inf`), GateFinite (the
   precondition read back entry by entry), KernelBlock (one grid point's stored block at an index),
   KernelGate (the eight blocks tile the result, which is the specification), RefGate (the
   reference's stages read at an index are the specification under real inputs). Here the five
   conjuncts are assembled: the kernel's two frames, the reference's frame from its run, the empty
   idealization ledger, and the equality of the two results. -/
import proofs.«162139_g24068996727021_cont_8to1_1417_25_alg».proof.Defs
import proofs.«162139_g24068996727021_cont_8to1_1417_25_alg».proof.Proof.Gen.Kernel
import proofs.«162139_g24068996727021_cont_8to1_1417_25_alg».proof.Proof.Gen.Kernel.Skeleton
import proofs.«162139_g24068996727021_cont_8to1_1417_25_alg».proof.Proof.Gen.Kernel.Launch
import proofs.«162139_g24068996727021_cont_8to1_1417_25_alg».proof.Proof.Gen.Kernel.Points
import proofs.«162139_g24068996727021_cont_8to1_1417_25_alg».proof.Proof.Gen.Kernel.Frame
import proofs.«162139_g24068996727021_cont_8to1_1417_25_alg».proof.Proof.Gen.KernelIdeal
import proofs.«162139_g24068996727021_cont_8to1_1417_25_alg».proof.Proof.Gen.KernelIdeal.Skeleton
import proofs.«162139_g24068996727021_cont_8to1_1417_25_alg».proof.Proof.Gen.KernelIdeal.Launch
import proofs.«162139_g24068996727021_cont_8to1_1417_25_alg».proof.Proof.Gen.KernelIdeal.Points
import proofs.«162139_g24068996727021_cont_8to1_1417_25_alg».proof.Proof.Gen.KernelIdeal.Frame
import proofs.«162139_g24068996727021_cont_8to1_1417_25_alg».proof.Proof.Gen.ReferenceIdeal
import proofs.«162139_g24068996727021_cont_8to1_1417_25_alg».proof.Proof.Gen.Pre_finite_inputs
import proofs.«162139_g24068996727021_cont_8to1_1417_25_alg».proof.Proof.Gen.KernelIdeal.Value
import proofs.«162139_g24068996727021_cont_8to1_1417_25_alg».proof.Proof.Gen.ReferenceIdeal.Run
import proofs.«162139_g24068996727021_cont_8to1_1417_25_alg».proof.Proof.Gen.ReferenceIdeal.Read
import Idealize.ShloMosaic.Adequacy
import Idealize.ShloMosaic.Init

import proofs.«162139_g24068996727021_cont_8to1_1417_25_alg».proof.Proof.GateSpec
import proofs.«162139_g24068996727021_cont_8to1_1417_25_alg».proof.Proof.GateFinite
import proofs.«162139_g24068996727021_cont_8to1_1417_25_alg».proof.Proof.KernelGate
import proofs.«162139_g24068996727021_cont_8to1_1417_25_alg».proof.Proof.RefGate

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the specification's gate scores of the arguments: the kernel's eight
    blocks tile them for any inputs, and the reference's shifted softmax equals the unshifted one
    because under the precondition every input, hence every logit and every row maximum, is a real. -/
theorem algebraic : Cert.algebraic_KernelIdeal_ReferenceIdeal := by
  intro m ρ m' ρ' hpre hagree
  refine ⟨_, Cert.KernelIdeal.GateValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v15_eq]
  obtain ⟨hx, hw, hb⟩ := Cert.GateFinite.reals_of_pre _ _ _ (hpre c)
  exact Cert.ReferenceIdeal.GateRef.ref_is_gate _ _ _ hx hw hb

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
